-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_arg1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_v13 : IVec S_ 1) (main_v15 : IVec S1600000 32) (main_v16 : IVec S1600000 32) : IVec S_ 1 :=
  let main_v17 : IVec S1600000 1 := cmpi .sge main_v15 main_v16
  let main_v18 : IVec S1x1600000 32 := (extractStridedSlice S1x1600000 ![0, 0] · slices_S2x1600000_S1x1600000_0_0) main_arg1
  let main_v19 : IVec S1600000 32 := shapeCast S1600000 main_v18 shapeCasts_S1x1600000_S1600000
  let main_c_5 : IVec S_ 32 := constantI S_ 32 100000#32
  let main_v20 : IVec S1600000 32 := broadcastInDim S1600000 ![] bcast_S_S1600000 main_c_5
  let main_v21 : IVec S1600000 1 := cmpi .slt main_v19 main_v20
  let main_v22 : IVec S1600000 1 := andi main_v17 main_v21
  let main_c_6 : IVec S_ 1 := constantI S_ 1 1#1
  let main_v23 : IVec S_ 1 := (fun x v => Host.reduce IntOp.andi x v reducesTo_S1600000_S_d0 h_S_) main_v22 main_c_6
  let main_v24 : IVec S_ 1 := andi main_v13 main_v23
  main_v24

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x1600000 32 := (extractStridedSlice S1x1600000 ![0, 0] · slices_S2x1600000_S1x1600000_0_0) main_arg1
  let main_v15 : IVec S1600000 32 := shapeCast S1600000 main_v14 shapeCasts_S1x1600000_S1600000
  let main_c_4 : IVec S_ 32 := constantI S_ 32 4294867296#32
  let main_v16 : IVec S1600000 32 := broadcastInDim S1600000 ![] bcast_S_S1600000 main_c_4
  fn_part1 (F := F) main_arg1 main_v13 main_v15 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩
abbrev S1 : Shape := ⟨1, ![1]⟩
abbrev S1x1 : Shape := ⟨2, ![1, 1]⟩
abbrev S1600000x128 : Shape := ⟨2, ![1600000, 128]⟩

abbrev nBuf : Space → Nat
  | .hbm => 50
  | .vmem => 14
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S1x128, .f32⟩
  | .hbm, ⟨19, _⟩ => ⟨S100000x1, .f32⟩
  | .hbm, ⟨20, _⟩ => ⟨S100000x1, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1, .i32⟩
  | .hbm, ⟨31, _⟩ => ⟨S_, .i32⟩
  | .hbm, ⟨32, _⟩ => ⟨S1600000x1, .i32⟩
  | .hbm, ⟨33, _⟩ => ⟨S1600000x1, .i1⟩
  | .hbm, ⟨34, _⟩ => ⟨S1x1, .i32⟩
  | .hbm, ⟨35, _⟩ => ⟨S1600000x1, .i32⟩
  | .hbm, ⟨36, _⟩ => ⟨S1600000x1, .i1⟩
  | .hbm, ⟨37, _⟩ => ⟨S1600000x1, .i1⟩
  | .hbm, ⟨38, _⟩ => ⟨S_, .i1⟩
  | .hbm, ⟨39, _⟩ => ⟨S1600000, .i1⟩
  | .hbm, ⟨40, _⟩ => ⟨S1600000x128, .f32⟩
  | .hbm, ⟨41, _⟩ => ⟨S1600000x128, .i1⟩
  | .hbm, ⟨42, _⟩ => ⟨S_, .f32⟩
  | .hbm, ⟨43, _⟩ => ⟨S1600000x128, .f32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x1, .f32⟩
  | .local _ .vmem, ⟨5, _⟩ => ⟨S5000x1, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x1, .f32⟩
  | .local _ .vmem, ⟨11, _⟩ => ⟨S5000x1, .f32⟩
  | .local _ .vmem, ⟨12, _⟩ => ⟨S5000x128, .f32⟩
  | .local _ .vmem, ⟨13, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v15 : Ref sig .tc := ⟨.hbm, 44, rfl⟩
abbrev main_cst_2 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_1_0_0_n_n_wf : DotDims.WF S5000x128 S128x128 S5000x128 [1] [1] [0] [0] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1x128 : Shape := ⟨2, ![1, 128]⟩
abbrev S100000x1 : Shape := ⟨2, ![100000, 1]⟩
abbrev S1600000x128 : Shape := ⟨2, ![1600000, 128]⟩

abbrev nBuf : Space → Nat
  | .hbm => 59
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S128x128, .f32⟩
  | .hbm, ⟨19, _⟩ => ⟨S100000x128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v38 : Ref sig .tc := ⟨.hbm, 58, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.Pay0.lean ====
/-
  The first dense stage at one entry.

  One grid point of the first kernel holds 5000 rows of `x`, the whole weight matrix, the bias as a row and the 5000
  sender degrees as a column, and leaves `(x · Wᵀ + b) · rsqrt (max deg 1)` in its output block: entry `(p, q)` is
  `(∑ₖ x[p, k] · W[q, k] + b[q]) · rsqrt (max deg[p] 1)`. Over the extended reals the change of float format before the
  matrix product is the identity and the product into a zero accumulator is the plain sum over `k`. The reference's
  stage `(x @ Wᵀ + b) · rsqrt (max deg 1)[:, None]`, read at the entry `(r, q)`, is the same expression of row `r`: its
  transpose of `W` followed by a contraction of `x`'s axis 1 with the transposed axis 0 multiplies `x[r, k]` by `W[q, k]`.
-/
import proofs.«406221_j21466246546035_2_alg».proof.Proof.Gen.KernelIdeal.Skeleton
import proofs.«406221_j21466246546035_2_alg».proof.Proof.Gen.ReferenceIdeal.Read
import proofs.«406221_j21466246546035_2_alg».proof.Proof.LibColumn
import Idealize.ShloMosaic.Lib.ValueIdx
import Idealize.ShloMosaic.Lib.Pipeline.Value
import Idealize.ShloMosaic.PureOps.Ideal.Laws

noncomputable section

namespace Cert.KernelIdeal.Stage1

open Cert.KernelIdeal Cert.KernelIdeal.Gen Idealize.ShloMosaic Idealize.ShloMosaic.ValueIdx

/-- The float word of the number one, at the extended reals. -/
abbrev one32 : EReal := Ideal.ofBits .f32 0x3F800000#32

/-- A `[1, b]` row broadcast to `[a, b]` reads, at `(p, s)`, the row at `(0, s)`. -/
theorem broadcastTo_1b_ab_apply {α : Type} {a b : ℕ} (hb : b ≠ 1) (v : (⟨2, ![1, b]⟩ : Shape).Idx → α)
    (h : (⟨2, ![1, b]⟩ : Shape).Broadcasts ⟨2, ![a, b]⟩) (p : Fin a) (s : Fin b) :
    broadcastTo ⟨2, ![a, b]⟩ v h (ix2 p s) = v (ix2 (0 : Fin 1) s) := by
  refine broadcastTo_apply v h (ix2 p s) (ix2 (0 : Fin 1) s) fun ax => ?_
  match ax with
  | ⟨0, _⟩ =>
    show 0 = if (1 : ℕ) = 1 then 0 else p.val
    rw [if_pos rfl]
  | ⟨1, _⟩ =>
    show s.val = if b = 1 then 0 else s.val
    rw [if_neg hb]

/-! ## The kernel's matrix product: `x`'s axis 1 against `W`'s axis 1 -/

theorem lhs_ax0 (i : S5000x128.Idx) (q : dot_S5000x128_S128x128_S5000x128_1_1_0_0_n_n.contr.Idx) :
    (dot_S5000x128_S128x128_S5000x128_1_1_0_0_n_n.lhsIdx i q 0).val = (i 0).val := by
  unfold DotDims.lhsIdx
  rw [dif_neg (show ¬(0 : Fin S5000x128.rank) ∈ dot_S5000x128_S128x128_S5000x128_1_1_0_0_n_n.lhsBatch by decide), dif_pos (show (0 : Fin S5000x128.rank) ∈ dot_S5000x128_S128x128_S5000x128_1_1_0_0_n_n.lhsNonContracting by decide)]
  rfl
theorem lhs_ax1 (i : S5000x128.Idx) (q : dot_S5000x128_S128x128_S5000x128_1_1_0_0_n_n.contr.Idx) :
    (dot_S5000x128_S128x128_S5000x128_1_1_0_0_n_n.lhsIdx i q 1).val = (q ⟨0, by decide⟩).val :=
  dot_S5000x128_S128x128_S5000x128_1_1_0_0_n_n.lhsIdx_val_of_single rfl i q
theorem rhs_ax0 (i : S5000x128.Idx) (q : dot_S5000x128_S128x128_S5000x128_1_1_0_0_n_n.contr.Idx) :
    (dot_S5000x128_S128x128_S5000x128_1_1_0_0_n_n.rhsIdx i q 0).val = (i 1).val := by
  unfold DotDims.rhsIdx
  rw [dif_neg (show ¬(0 : Fin S128x128.rank) ∈ dot_S5000x128_S128x128_S5000x128_1_1_0_0_n_n.rhsBatch by decide), dif_pos (show (0 : Fin S128x128.rank) ∈ dot_S5000x128_S128x128_S5000x128_1_1_0_0_n_n.rhsNonContracting by decide)]
  rfl
theorem rhs_ax1 (i : S5000x128.Idx) (q : dot_S5000x128_S128x128_S5000x128_1_1_0_0_n_n.contr.Idx) :
    (dot_S5000x128_S128x128_S5000x128_1_1_0_0_n_n.rhsIdx i q 1).val = (q ⟨0, by decide⟩).val :=
  dot_S5000x128_S128x128_S5000x128_1_1_0_0_n_n.rhsIdx_val_of_single rfl i q

/-- Into a zero accumulator the product at `(p, q)` is `∑ₖ a[p, k] · w[q, k]`. -/
theorem matmul0_apply (a : FVec Ideal S5000x128 .bf16) (w : FVec Ideal S128x128 .bf16) (p : Fin 5000) (q : Fin 128) :
    matmul dot_S5000x128_S128x128_S5000x128_1_1_0_0_n_n none a w (constant S5000x128 .f32 0x00000000#32) (ix2 p q)
      = ∑ k : Fin 128, a (ix2 p k) * w (ix2 q k) := by
  simp only [matmul]
  rw [Ideal.matmul_constant_zero_apply, ← Equiv.sum_comp (ValueIdx.contrEquiv1 dot_S5000x128_S128x128_S5000x128_1_1_0_0_n_n 128 rfl rfl).symm]
  refine Finset.sum_congr rfl fun k _ => ?_
  have hk := ValueIdx.contrEquiv1_symm_val dot_S5000x128_S128x128_S5000x128_1_1_0_0_n_n 128 rfl rfl k
  have el : dot_S5000x128_S128x128_S5000x128_1_1_0_0_n_n.lhsIdx (ix2 p q) ((ValueIdx.contrEquiv1 dot_S5000x128_S128x128_S5000x128_1_1_0_0_n_n 128 rfl rfl).symm k) = ix2 p k := funext fun ax => Fin.ext (by
    match ax with
    | ⟨0, _⟩ => exact lhs_ax0 _ _
    | ⟨1, _⟩ => exact (lhs_ax1 _ _).trans hk)
  have er : dot_S5000x128_S128x128_S5000x128_1_1_0_0_n_n.rhsIdx (ix2 p q) ((ValueIdx.contrEquiv1 dot_S5000x128_S128x128_S5000x128_1_1_0_0_n_n 128 rfl rfl).symm k) = ix2 q k := funext fun ax => Fin.ext (by
    match ax with
    | ⟨0, _⟩ => exact rhs_ax0 _ _
    | ⟨1, _⟩ => exact (rhs_ax1 _ _).trans hk)
  rw [el, er]

/-- What one grid point stores at `(p, q)` of its block, from the blocks it loaded. -/
theorem pay0_apply (x0 : Vec Ideal S5000x128 .f32) (w : Vec Ideal S128x128 .f32) (bb : Vec Ideal S1x128 .f32)
    (d : Vec Ideal S5000x1 .f32) (p : Fin 5000) (q : Fin 128) :
    k0_pay1 x0 w bb d (ix2 p q)
      = ((∑ k : Fin 128, x0 (ix2 p k) * w (ix2 q k)) + bb (ix2 (0 : Fin 1) q)) * Ideal.rsqrt (max (d (ix2 p (0 : Fin 1))) one32) := by
  unfold k0_pay1
  rw [ValueIdx.mulf_apply, ValueIdx.addf_apply, matmul0_apply, shapeCast_self, shapeCast_self,
    broadcastTo_1b_ab_apply (by decide), Cert.Attn.Column.broadcastTo_a1_ab_apply]
  rfl

/-! ## The reference's stage at the same entry -/

open Cert.ReferenceIdeal.Read in
/-- The reference's `(x @ Wᵀ + b) · rsqrt (max deg 1)[:, None]` at `(r, q)`, `deg` the sender degrees it computes. -/
theorem ref21_apply (x : (⟨Cert.ReferenceIdeal.S100000x128, .f32⟩ : BufTy).Contents (Elt Ideal))
    (adj : (⟨Cert.ReferenceIdeal.S2x1600000, .i32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) (r : Fin 100000) (q : Fin 128) :
    val_main_v21 (F := Ideal) x adj W b (ix2 r q)
      = ((∑ k : Fin 128, x (ix2 r k) * W (ix2 q k)) + b (ix1 q)) * Ideal.rsqrt (max (val_main_v7 (F := Ideal) adj (ix1 r)) one32) := by
  have e1 : ∀ k : Fin 128, lidx_main_v12 (ix2 r q) k = ix2 r k := fun k => funext fun ax => Fin.ext (by
    match ax with
    | ⟨0, _⟩ => rfl
    | ⟨1, _⟩ => rfl)
  have e2 : ∀ k : Fin 128, idx_main_v11 (ridx_main_v12 (ix2 r q) k) = ix2 q k := fun k => funext fun ax => Fin.ext (by
    match ax with
    | ⟨0, _⟩ => rfl
    | ⟨1, _⟩ => rfl)
  have e3 : idx_main_v13 (idx_main_v14 (ix2 r q)) = ix1 q := funext fun ax => Fin.ext (by
    match ax with
    | ⟨0, _⟩ => rfl)
  have e4 : idx_main_v19 (idx_main_v20 (ix2 r q)) = ix1 r := funext fun ax => Fin.ext (by
    match ax with
    | ⟨0, _⟩ => rfl)
  rw [val_main_v21_apply]
  rw [val_main_v15_apply]
  rw [val_main_v12_apply]
  rw [val_main_v14_apply]
  rw [val_main_v13_apply]
  rw [val_main_v20_apply]
  rw [val_main_v19_apply]
  rw [val_main_v18_apply]
  rw [val_main_v17_apply]
  rw [val_main_v16_apply]
  rw [val_main_cst_2_apply]
  simp only [val_main_v11_apply, e1, e2, e3, e4, one32, Ideal.mulf_def, Ideal.addf_def, Ideal.hostUnary_rsqrt_def, Ideal.maximumf_def, Ideal.ofBits_def]

end Cert.KernelIdeal.Stage1

end
-- ==== Proof.Pay1.lean ====
/-
  The second dense stage at one entry.

  One grid point of the second kernel holds 5000 rows of the scattered array and the 5000 receiver degrees as a column,
  and stores `silu (sc · rsqrt (max deg 1))`, where `silu y = y · logistic y` and the kernel's `logistic` is, over the extended
  reals, `1 / (1 + exp (-y))`. The reference computes `y · (1 / (1 + exp (-y)))` with the host's negate, exponential, add and
  divide and the float word of the number one; that word denotes `1`, so the two are one function of `y`.
-/
import proofs.«406221_j21466246546035_2_alg».proof.Proof.Gen.KernelIdeal.Skeleton
import proofs.«406221_j21466246546035_2_alg».proof.Proof.Gen.ReferenceIdeal.Read
import proofs.«406221_j21466246546035_2_alg».proof.Proof.Pay0
import proofs.«406221_j21466246546035_2_alg».proof.Proof.LibColumn
import Idealize.ShloMosaic.Lib.ValueIdx
import Idealize.ShloMosaic.Lib.Pipeline.Value
import Idealize.ShloMosaic.PureOps.Ideal

noncomputable section

namespace Cert.KernelIdeal.Stage2

open Cert.KernelIdeal Cert.KernelIdeal.Gen Idealize.ShloMosaic Idealize.ShloMosaic.ValueIdx
open Cert.KernelIdeal.Stage1 (one32)

/-- The float word of the number one denotes `1`. -/
theorem one32_eq : one32 = 1 := by
  simp [one32, Ideal.ofBits, Ideal.ieee, -EReal.coe_mul]; norm_num

/-- `silu y = y · logistic y`, on the extended reals. -/
def silu (y : EReal) : EReal := y * Ideal.logistic y

theorem logistic_apply {s : Shape} {φ : FTy} (a : FVec Ideal s φ) (i : s.Idx) : logistic a i = Ideal.logistic (a i) := rfl

/-- What one grid point stores at `(p, q)` of its block, from the blocks it loaded. -/
theorem pay1_apply (sc : Vec Ideal S5000x128 .f32) (d : Vec Ideal S5000x1 .f32) (p : Fin 5000) (q : Fin 128) :
    k1_pay1 sc d (ix2 p q) = silu (sc (ix2 p q) * Ideal.rsqrt (max (d (ix2 p (0 : Fin 1))) one32)) := by
  unfold k1_pay1 silu
  rw [ValueIdx.mulf_apply, logistic_apply, ValueIdx.mulf_apply, shapeCast_self, shapeCast_self,
    Cert.Attn.Column.broadcastTo_a1_ab_apply]
  rfl

open Cert.ReferenceIdeal.Read in
/-- The reference's last stage at `(r, q)`, from its scattered array and the receiver degrees it computes. -/
theorem ref38_apply (x : (⟨Cert.ReferenceIdeal.S100000x128, .f32⟩ : BufTy).Contents (Elt Ideal))
    (adj : (⟨Cert.ReferenceIdeal.S2x1600000, .i32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) (r : Fin 100000) (q : Fin 128) :
    val_main_v38 (F := Ideal) x adj W b (ix2 r q)
      = silu (val_main_v31 (F := Ideal) x adj W b (ix2 r q) * Ideal.rsqrt (max (val_main_v10 (F := Ideal) adj (ix1 r)) one32)) := by
  have e1 : idx_main_v35 (idx_main_v36 (ix2 r q)) = ix1 r := funext fun ax => Fin.ext (by
    match ax with
    | ⟨0, _⟩ => rfl)
  rw [val_main_v38_apply, val_main_call0_v5_apply, val_main_call0_v4_apply, val_main_call0_cst_0_apply,
    val_main_call0_v3_apply, val_main_call0_v2_apply, val_main_call0_cst_apply, val_main_call0_v1_apply,
    val_main_call0_v0_apply, val_main_v37_apply, val_main_v36_apply, val_main_v35_apply, val_main_v34_apply,
    val_main_v33_apply, val_main_v32_apply, val_main_cst_5_apply, e1]
  have h1 : (FloatOps.ofBits .f32 0x3F800000#32 : Ideal .f32) = 1 := one32_eq
  rw [h1]
  simp only [silu, Ideal.logistic, one32_eq, Ideal.mulf_def, Ideal.addf_def, Ideal.hostDivf_def, Ideal.hostUnary_exp_def,
    Ideal.hostNegf_def, Ideal.negf_def, Ideal.hostUnary_rsqrt_def, Ideal.maximumf_def]

end Cert.KernelIdeal.Stage2

end
-- ==== Proof.Region0.lean ====
/-
  The first dense stage as one array.

  Each of the first kernel's twenty grid points reads 5000 rows of `x` and of the sender-degree column, the whole
  weight matrix and the bias row, and writes the same 5000 rows of its output; block `t` holds rows `5000 t` to
  `5000 t + 4999`, so row `r` lies in block `r / 5000` and the blocks tile the array. What a point writes back is its block of
  one function of the arrays the kernel finds, so after the kernel the output array is that function — the reference's
  `(x @ Wᵀ + b) · rsqrt (max deg 1)[:, None]` of the launch arrays, the degrees being the scatter-add of ones both programs
  compute before it.
-/
import proofs.«406221_j21466246546035_2_alg».proof.Proof.Gen.KernelIdeal.Frame
import proofs.«406221_j21466246546035_2_alg».proof.Proof.Gen.ReferenceIdeal.Read
import proofs.«406221_j21466246546035_2_alg».proof.Proof.Pay0
import proofs.«406221_j21466246546035_2_alg».proof.Proof.LibColumn
import Idealize.ShloMosaic.Lib.ValueIdx
import Idealize.ShloMosaic.Lib.Pipeline.Value
import Idealize.ShloMosaic.Lib.StableHlo.Run

set_option maxRecDepth 16384

noncomputable section

namespace Cert.KernelIdeal.Stage1

open Cert.KernelIdeal Cert.KernelIdeal.Gen Idealize.ShloMosaic Idealize.ShloMosaic.ValueIdx
open Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## What the first kernel finds in its operands' arrays -/

theorem V1_x (c : Dev nD) : V1 m ρ c main_arg0 = m ((c : Thread nD τ).loc main_arg0) := by
  dsimp only [V1, W1, W0, hostOps0]
  after_results_simp
theorem V1_w (c : Dev nD) : V1 m ρ c main_arg2 = m ((c : Thread nD τ).loc main_arg2) := by
  dsimp only [V1, W1, W0, hostOps0]
  after_results_simp
theorem V1_b (c : Dev nD) : V1 m ρ c main_v11 = shapeCast S1x128 (m ((c : Thread nD τ).loc main_arg3)) shapeCasts_S128_S1x128 := by
  dsimp only [V1, W1, W0, hostOps0]
  after_results_simp
  rfl
theorem V1_d (c : Dev nD) : V1 m ρ c main_v12
    = shapeCast S100000x1 (Cert.ReferenceIdeal.Read.val_main_v7 (F := Ideal) (m ((c : Thread nD τ).loc main_arg1))) shapeCasts_S100000_S100000x1 := by
  dsimp only [V1, W1, W0, hostOps0]
  after_results_simp
  rfl

theorem origin_zero : (![0, 0] : Fin 2 → Nat) = fun _ => 0 := funext fun a => by fin_cases a <;> rfl

/-- The grid has 20 points. -/
theorem t_lt (t : Fin cfg0.N) : t.val < 20 := lt_of_lt_of_eq t.isLt N_0

/-- Row `p` of grid point `t`'s block is row `5000 t + p` of the array. -/
def row (t : Fin cfg0.N) (p : Fin 5000) : Fin 100000 := ⟨5000 * t.val + p.val, by have := t_lt t; have := p.isLt; omega⟩

/-- The printed index maps over the grid: point `t` takes row block `t` of `x`, of the degree column and of the output,
    and block `(0, 0)` of the weights and of the bias row. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

section Blocks
-- the arrays as the kernel finds them: a parameter, instantiated at the host fold last
variable (V : (c : Dev nD) → (b : Ref sig .tc) → Buf (Elt Ideal) ((c : Thread nD τ).loc b))

set_option maxHeartbeats 100000 in
/-- The point's block of `x` at `(p, k)`. -/
theorem xblk_apply (c : Dev nD) (t : Fin cfg0.N) (X : S100000x128.Idx → EReal) (hx : V c main_arg0 = X) (p : Fin 5000) (k : Fin 128) :
    iblk0 V c 0 t (ix2 p k) = X (ix2 (row t p) k) := by
  obtain ⟨e0, e1, -⟩ := block_index0 t
  show V c main_arg0 (((cfg0.win 0).blk t).view.emb (ix2 p k)) = _
  rw [hx]
  refine congrArg _ (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

set_option maxHeartbeats 100000 in
/-- The point's block of the weights is the whole matrix. -/
theorem wblk_apply (c : Dev nD) (t : Fin cfg0.N) (Wm : S128x128.Idx → EReal) (hw : V c main_arg2 = Wm) (q : Fin 128) (k : Fin 128) :
    iblk0 V c 1 t (ix2 q k) = Wm (ix2 q k) := by
  obtain ⟨-, -, e0, e1, -⟩ := block_index0 t
  show V c main_arg2 (((cfg0.win 1).blk t).view.emb (ix2 q k)) = _
  rw [hw]
  refine congrArg _ (funext fun a => Fin.ext ?_)
  match a with
  | ⟨0, _⟩ => show win0_1.index t (0 : Fin 2) * 128 + 1 * q.val = q.val; omega
  | ⟨1, _⟩ => show win0_1.index t (1 : Fin 2) * 128 + 1 * k.val = k.val; omega

set_option maxHeartbeats 100000 in
/-- The point's block of the bias row at `(0, q)` is the bias at `q`. -/
theorem bblk_apply (c : Dev nD) (t : Fin cfg0.N) (bv : S128.Idx → EReal)
    (hb : V c main_v11 = shapeCast S1x128 bv shapeCasts_S128_S1x128) (q : Fin 128) :
    iblk0 V c 2 t (ix2 (0 : Fin 1) q) = bv (ix1 q) := by
  obtain ⟨-, -, -, -, e0, e1, -⟩ := block_index0 t
  show V c main_v11 (((cfg0.win 2).blk t).view.emb (ix2 (0 : Fin 1) q)) = _
  rw [hb]
  refine shapeCast_apply _ _ _ _ ?_
  rw [Shape.rowMajor_val_one, Shape.rowMajor_val_two]
  show q.val = (win0_2.index t (0 : Fin 2) * 1 + 1 * 0) * 128 + (win0_2.index t (1 : Fin 2) * 128 + 1 * q.val)
  omega

set_option maxHeartbeats 100000 in
/-- The point's block of the degree column at `(p, 0)` is the degree of row `5000 t + p`. -/
theorem dblk_apply (c : Dev nD) (t : Fin cfg0.N) (sd : S100000.Idx → EReal)
    (hd : V c main_v12 = shapeCast S100000x1 sd shapeCasts_S100000_S100000x1) (p : Fin 5000) :
    iblk0 V c 3 t (ix2 p (0 : Fin 1)) = sd (ix1 (row t p)) := by
  obtain ⟨-, -, -, -, -, -, e0, e1, -⟩ := block_index0 t
  show V c main_v12 (((cfg0.win 3).blk t).view.emb (ix2 p (0 : Fin 1))) = _
  rw [hd]
  refine shapeCast_apply _ _ _ _ ?_
  rw [Shape.rowMajor_val_one, Shape.rowMajor_val_two]
  show 5000 * t.val + p.val = (win0_3.index t (0 : Fin 2) * 5000 + 1 * p.val) * 1 + (win0_3.index t (1 : Fin 2) * 1 + 1 * 0)
  omega

/-- The first stage as one function of the arrays: entry `(r, q)` is `(∑ₖ X[r, k] · W[q, k] + b[q]) · rsqrt (max deg[r] 1)`. -/
def Hfun (X : S100000x128.Idx → EReal) (Wm : S128x128.Idx → EReal) (bv : S128.Idx → EReal) (sd : S100000.Idx → EReal) :
    S100000x128.Idx → EReal := fun i =>
  ((∑ k : Fin 128, X (ix2 (i 0) k) * Wm (ix2 (i 1) k)) + bv (ix1 (i 1))) * Ideal.rsqrt (max (sd (ix1 (i 0))) one32)

set_option maxHeartbeats 200000 in
/-- WHAT POINT `t` WRITES BACK is its block of that function of the arrays the kernel finds. -/
theorem written_back0 (c : Dev nD) (t : Fin cfg0.N) (X : S100000x128.Idx → EReal) (Wm : S128x128.Idx → EReal) (bv : S128.Idx → EReal)
    (sd : S100000.Idx → EReal) (hx : V c main_arg0 = X) (hw : V c main_arg2 = Wm)
    (hb : V c main_v11 = shapeCast S1x128 bv shapeCasts_S128_S1x128)
    (hd : V c main_v12 = shapeCast S100000x1 sd shapeCasts_S100000_S100000x1) :
    (dat0 V c).flushed 4 t = ((cfg0.win 4).blk t).view.read (Elt Ideal) (Hfun X Wm bv sd) := by
  show (cfg0.win 4).cut (grid0.coords t) ((dat0 V c).after 4 t) = _
  rw [after0_4]
  unfold out0_4
  rw [View.canon_unit_zero origin_zero]
  simp only [View.ld_unit_zero (S := S5000x128) origin_zero, View.ld_unit_zero (S := S128x128) origin_zero, View.ld_unit_zero (S := S1x128) origin_zero, View.ld_unit_zero (S := S5000x1) origin_zero]
  funext j
  show k0_pay1 (iblk0 V c 0 t) (iblk0 V c 1 t) (iblk0 V c 2 t) (iblk0 V c 3 t) j
    = Hfun X Wm bv sd (((cfg0.win 4).blk t).view.emb j)
  obtain ⟨p, q, rfl⟩ : ∃ (p : Fin 5000) (q : Fin 128), j = ix2 p q := ⟨j 0, j 1, eq_ix2 j⟩
  have hemb : ((cfg0.win 4).blk t).view.emb (ix2 p q) = ix2 (row t p) q := by
    obtain ⟨-, -, -, -, -, -, -, -, e0, e1⟩ := block_index0 t
    refine funext fun a => Fin.ext ?_
    match a with
    | ⟨0, _⟩ => show win0_4.index t (0 : Fin 2) * 5000 + 1 * p.val = 5000 * t.val + p.val; omega
    | ⟨1, _⟩ => show win0_4.index t (1 : Fin 2) * 128 + 1 * q.val = q.val; omega
  rw [hemb, pay0_apply, dblk_apply V c t sd hd, bblk_apply V c t bv hb]
  simp only [xblk_apply V c t X hx, wblk_apply V c t Wm hw]
  rfl

end Blocks

/-- An index of the array is in point `t`'s block iff each coordinate is in the block's range on its axis. -/
theorem mem_row_block0 (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v14).slice (win0_4.rect t)).set ↔ _
  rw [View.set_slice_whole, Rect.mem_set_unit]
  exact Iff.rfl

/-- Every row block is some point's. -/
theorem row_block_onto0 : ∀ q0 : Fin 20, ∃ t : Fin cfg0.N, win0_4.index t = ![q0.val, 0] :=
  (by decide +kernel : ∀ q0 : Fin 20, ∃ t : Fin grid0.N, win0_4.index t = ![q0.val, 0])

/-- The twenty row blocks tile the array: row `r` lies in block `r / 5000`. -/
theorem row_blocks_tile0 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := row_block_onto0 ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_row_block0]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 128 ≤ (i 1).val ∧ (i 1).val < win0_4.index t (1 : Fin 2) * 128 + 128; omega

section Array
variable (V : (c : Dev nD) → (b : Ref sig .tc) → Buf (Elt Ideal) ((c : Thread nD τ).loc b))

/-- THE ARRAY after the first kernel: that one function of the arrays it found. -/
theorem stage1_array_of (c : Dev nD) (X : S100000x128.Idx → EReal) (Wm : S128x128.Idx → EReal) (bv : S128.Idx → EReal)
    (sd : S100000.Idx → EReal) (hx : V c main_arg0 = X) (hw : V c main_arg2 = Wm)
    (hb : V c main_v11 = shapeCast S1x128 bv shapeCasts_S128_S1x128)
    (hd : V c main_v12 = shapeCast S100000x1 sd shapeCasts_S100000_S100000x1) :
    (dat0 V c).arrAt 4 cfg0.N = Hfun X Wm bv sd :=
  (dat0 V c).arrAt_eq_of_cover 4 (Hfun X Wm bv sd) (fun t _ => written_back0 V c t X Wm bv sd hx hw hb hd) row_blocks_tile0

end Array

/-- The reference's first stage is that function of the arguments and of the sender degrees it computes. -/
theorem H_eq (x : (⟨Cert.ReferenceIdeal.S100000x128, .f32⟩ : BufTy).Contents (Elt Ideal))
    (adj : (⟨Cert.ReferenceIdeal.S2x1600000, .i32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) :
    Cert.ReferenceIdeal.Read.val_main_v21 (F := Ideal) x adj W b = Hfun x W b (Cert.ReferenceIdeal.Read.val_main_v7 (F := Ideal) adj) :=
  funext fun i => by
    obtain ⟨r, q, rfl⟩ : ∃ (r : Fin 100000) (q : Fin 128), i = ix2 r q := ⟨i 0, i 1, eq_ix2 i⟩
    exact ref21_apply x adj W b r q

/-- The reference's first stage of the launch arrays. -/
abbrev H (c : Dev nD) : S100000x128.Idx → EReal :=
  Cert.ReferenceIdeal.Read.val_main_v21 (F := Ideal) (m ((c : Thread nD τ).loc main_arg0)) (m ((c : Thread nD τ).loc main_arg1))
    (m ((c : Thread nD τ).loc main_arg2)) (m ((c : Thread nD τ).loc main_arg3))

/-- After the first kernel its output array holds the reference's first stage of the launch arrays. -/
theorem stage1_array (c : Dev nD) : (dat0 (V1 m ρ) c).arrAt 4 cfg0.N = H m c :=
  (stage1_array_of (V1 m ρ) c (m ((c : Thread nD τ).loc main_arg0)) (m ((c : Thread nD τ).loc main_arg2)) (m ((c : Thread nD τ).loc main_arg3))
    (Cert.ReferenceIdeal.Read.val_main_v7 (F := Ideal) (m ((c : Thread nD τ).loc main_arg1)))
    (V1_x m ρ c) (V1_w m ρ c) (V1_b m ρ c) (V1_d m ρ c)).trans (H_eq _ _ _ _).symm

end Cert.KernelIdeal.Stage1

end
-- ==== Proof.LibIndexWrap.lean ====
/-
  Signed index words wrapped the NumPy way, and masks that are all ones.

  An index word `s` into an axis of extent `n` is wrapped as `if s < 0 then s + n else s` (signed compare, wrapping
  add). If `-n ≤ s < n` as a signed integer, the wrapped word lies in `[0, n)`, so a range test
  `0 ≤ s' ∧ s' ≤ n - 1` of it is the bit 1 (`wrap_inRange`, `rangeTest_wrap`). A reduce by `and` from the initial
  bit 1 over bits that are all 1 is 1 at every result index (`reduce_andi_of_all`, the converse of the library's
  `Host.reduce_andi_eq_one`), and a select under a mask that is 1 everywhere is its first branch (`select_of_ones`).
-/
import Idealize.ShloMosaic.Lib.ReduceAll
import Idealize.ShloMosaic.Lib.StableHlo.Predicate

namespace Idealize.ShloMosaic.IndexWrap

open Idealize.ShloMosaic

/-- NumPy's wrap of a signed index word into an axis of extent `n`: a negative index counts from the end. -/
def wrapWord (n s : BitVec 32) : BitVec 32 := Scalar.select (IntOp.cmpi .slt s 0#32) (IntOp.addi s n) s

/-- A signed index in `[-n, n)` wraps into `[0, n)`. -/
theorem wrap_inRange (n : Nat) (hn : n < 2 ^ 30) (s : BitVec 32) (h1 : -(n : Int) ≤ s.toInt) (h2 : s.toInt < n) :
    0 ≤ (wrapWord (BitVec.ofNat 32 n) s).toInt ∧ (wrapWord (BitVec.ofNat 32 n) s).toInt < n := by
  have hz : (0#32 : BitVec 32).toInt = 0 := by decide
  have hnI : (BitVec.ofNat 32 n).toInt = n := StableHlo.Predicate.toInt_ofNat_small n (by omega)
  unfold wrapWord Scalar.select
  by_cases hs : IntOp.cmpi .slt s 0#32 = 1
  · rw [if_pos hs]
    have hneg : s.toInt < 0 := by have := IntOp.cmpi_slt.1 hs; rwa [hz] at this
    have hsum : (IntOp.addi s (BitVec.ofNat 32 n)).toInt = s.toInt + n := by
      rw [IntOp.addi, BitVec.toInt_add, hnI]
      exact Int.bmod_eq_of_le (by omega) (by omega)
    rw [hsum]; omega
  · rw [if_neg hs]
    have hnn : ¬ s.toInt < 0 := fun h => hs (IntOp.cmpi_slt.2 (by rw [hz]; exact h))
    omega

/-- The range test `0 ≤ s' ∧ s' ≤ hi` (signed) of a wrapped index, `hi` the word of `n - 1`, is the bit 1. -/
theorem rangeTest_wrap (n : Nat) (hn0 : 0 < n) (hn : n < 2 ^ 30) (hi : BitVec 32) (hhi : hi.toInt = (n : Int) - 1)
    (s : BitVec 32) (h1 : -(n : Int) ≤ s.toInt) (h2 : s.toInt < n) :
    IntOp.andi (IntOp.cmpi .sge (wrapWord (BitVec.ofNat 32 n) s) 0#32) (IntOp.cmpi .sle (wrapWord (BitVec.ofNat 32 n) s) hi) = 1#1 := by
  have hz : (0#32 : BitVec 32).toInt = 0 := by decide
  obtain ⟨h0, hlt⟩ := wrap_inRange n hn s h1 h2
  exact IntOp.andi_eq_one.2 ⟨IntOp.cmpi_sge.2 (by rw [hz]; exact h0), IntOp.cmpi_sle.2 (by rw [hhi]; omega)⟩

/-- A left fold by `and` from 1 over bits that are all 1 is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    exact foldl_andi_ones f l _ (IntOp.andi_eq_one.2 ⟨h, hl a (List.mem_cons_self ..)⟩) (fun n hn => hl n (List.mem_cons_of_mem _ hn))

/-- A reduce by `and` from the initial bit 1 over an operand that is 1 everywhere is 1 at every result index. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl]
  exact foldl_andi_ones x _ _ (hinit _) (fun i _ => hx i)

/-- Under a mask that is 1 everywhere a select is its first branch. -/
theorem select_of_ones {α : Type} {s : Shape} (c : IVec s 1) (a b : s.Idx → α) (hc : ∀ i, c i = 1#1) : select c a b = a :=
  funext fun i => by
    show Scalar.select (c i) (a i) (b i) = a i
    rw [hc i]; exact if_pos rfl

end Idealize.ShloMosaic.IndexWrap
-- ==== Proof.TakeFill.lean ====
/-
  `jnp.take` in fill mode against plain indexing.

  The kernel's program gathers rows with `jnp.take(h, s, axis=0)`: it wraps a negative index the NumPy way
  (`s + 100000` when `s < 0`), gathers at the wrapped index, and replaces by a fill value every row whose wrapped index
  fails the range test `0 ≤ s' ≤ 99999`. When every index lies in `[-100000, 100000)` the wrapped index passes the test
  on every row, the mask is 1 everywhere, and the result is the gather alone — which is what `h[s]` computes.
-/
import proofs.«406221_j21466246546035_2_alg».proof.KernelIdeal
import proofs.«406221_j21466246546035_2_alg».proof.Proof.Gen.KernelIdeal
import proofs.«406221_j21466246546035_2_alg».proof.Proof.LibIndexWrap
import Idealize.ShloMosaic.PureOps.Ideal

noncomputable section

namespace Cert.KernelIdeal.Take

open Cert.KernelIdeal Cert.KernelIdeal.Facts₀ Cert.KernelIdeal.Facts Idealize.ShloMosaic

/-- The wrapped indices as the `[1600000, 1]` column the gather reads. -/
def idxCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The range test of the wrapped indices, reduced over the column's unit axis: one bit per row. -/
def inRange (s : IVec S1600000 32) : IVec S1600000 1 :=
  Host.reduce IntOp.andi
    (andi (cmpi .sge (idxCol s) (broadcastInDim S1600000x1 ![] bcast_S_S1600000x1 (constantI S_ 32 0#32)))
      (cmpi .sle (idxCol s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- `jnp.take(T, s, axis=0)` in fill mode. -/
def takeFill (T : FVec Ideal S100000x128 .f32) (s : IVec S1600000 32) : FVec Ideal S1600000x128 .f32 :=
  select (broadcastInDim S1600000x128 ![0] bcast_S1600000_S1600000x128_0 (inRange s))
    (Host.gather gather_S100000x128_S1600000x1_S1600000x128_1_0_n_n_0_1_1128 T (idxCol s))
    (broadcastInDim S1600000x128 ![] bcast_S_S1600000x128 (constant S_ .f32 0x7FC00000#32))

/-- With every index in `[-100000, 100000)` each row passes the range test. -/
theorem inRange_eq_one (s : IVec S1600000 32)
    (hs : ∀ e : S1600000.Idx, -(100000 : Int) ≤ (s e).toInt ∧ (s e).toInt < 100000) (e : S1600000.Idx) :
    inRange s e = 1#1 := by
  unfold inRange
  refine IndexWrap.reduce_andi_of_all _ _ _ _ (fun _ => rfl) (fun j => ?_) e
  show IntOp.andi (IntOp.cmpi .sge (IndexWrap.wrapWord (BitVec.ofNat 32 100000) (s _)) 0#32)
      (IntOp.cmpi .sle (IndexWrap.wrapWord (BitVec.ofNat 32 100000) (s _)) 99999#32) = 1#1
  exact IndexWrap.rangeTest_wrap 100000 (by decide) (by decide) 99999#32 (by decide) _ (hs _).1 (hs _).2

/-- So the fill mode is the plain gather at the wrapped indices. -/
theorem takeFill_eq (T : FVec Ideal S100000x128 .f32) (s : IVec S1600000 32)
    (hs : ∀ e : S1600000.Idx, -(100000 : Int) ≤ (s e).toInt ∧ (s e).toInt < 100000) :
    takeFill T s = Host.gather gather_S100000x128_S1600000x1_S1600000x128_1_0_n_n_0_1_1128 T (idxCol s) := by
  unfold takeFill
  exact IndexWrap.select_of_ones _ _ _ (fun i => inRange_eq_one s hs _)

end Cert.KernelIdeal.Take

end
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.Mid.lean ====
/-
  Between the two kernels: the gather over the senders and the scatter-add over the receivers.

  When the second kernel starts, its first operand holds the scatter-add, over the receiver row of `adj`, of the rows
  the program gathered from the first kernel's output with `jnp.take` at the sender row. That output is the
  reference's first stage, the fill mode of `jnp.take` is the plain gather when the sender indices lie in
  `[-100000, 100000)`, and the scatter-add is the operation the reference applies to the same operands: so the operand
  holds the reference's scattered array. The second operand holds the receiver degrees as a column.
-/
import proofs.«406221_j21466246546035_2_alg».proof.Proof.Gen.KernelIdeal.Frame
import proofs.«406221_j21466246546035_2_alg».proof.Proof.Gen.ReferenceIdeal.Read
import proofs.«406221_j21466246546035_2_alg».proof.Proof.Region0
import proofs.«406221_j21466246546035_2_alg».proof.Proof.TakeFill
import proofs.«406221_j21466246546035_2_alg».proof.Proof.LibTRef
import Idealize.ShloMosaic.Lib.StableHlo.Run

set_option maxRecDepth 16384

noncomputable section

namespace Cert.KernelIdeal.Stage1

open Cert.KernelIdeal Cert.KernelIdeal.Gen Idealize.ShloMosaic Idealize.ShloMosaic.ValueIdx
open Idealize.ShloMosaic.TcCoe Idealize.SL.Sem Idealize.ShloMosaic.StableHlo

variable (m : (ℓ : Loc nD τ sig) → Buf (Elt Ideal) ℓ) (ρ : Dev nD → PrngReg)

/-- The sender row of the launch `adj`. -/
abbrev Sidx (c : Dev nD) : IVec S1600000 32 := Cert.ReferenceIdeal.Read.val_main_v1 (F := Ideal) (m ((c : Thread nD τ).loc main_arg1))
/-- The receiver row of the launch `adj`. -/
abbrev Ridx (c : Dev nD) : IVec S1600000 32 := Cert.ReferenceIdeal.Read.val_main_v3 (F := Ideal) (m ((c : Thread nD τ).loc main_arg1))

theorem W1_s (c : Dev nD) : W1 m ρ c (Proc.devRef .tc main_v1) = Sidx m c := by
  dsimp only [W1, W0, hostOps0]
  after_results_simp
  rfl
theorem W1_r (c : Dev nD) : W1 m ρ c (Proc.devRef .tc main_v3) = Ridx m c := by
  dsimp only [W1, W0, hostOps0]
  after_results_simp
  rfl
theorem W1_rd (c : Dev nD) : W1 m ρ c (Proc.devRef .tc main_v13)
    = shapeCast S100000x1 (Cert.ReferenceIdeal.Read.val_main_v10 (F := Ideal) (m ((c : Thread nD τ).loc main_arg1))) shapeCasts_S100000_S100000x1 := by
  dsimp only [W1, W0, hostOps0]
  after_results_simp
  rfl

/-- The reference's scattered array of the launch arrays. -/
abbrev SC (c : Dev nD) : S100000x128.Idx → EReal :=
  Cert.ReferenceIdeal.Read.val_main_v31 (F := Ideal) (m ((c : Thread nD τ).loc main_arg0)) (m ((c : Thread nD τ).loc main_arg1))
    (m ((c : Thread nD τ).loc main_arg2)) (m ((c : Thread nD τ).loc main_arg3))

set_option maxHeartbeats 1000000 in
/-- The second kernel's first operand: the reference's scattered array, when the sender indices are in range. -/
theorem W4_sc (c : Dev nD) (hs : ∀ e : S1600000.Idx, -(100000 : Int) ≤ (Sidx m c e).toInt ∧ (Sidx m c e).toInt < 100000) :
    W4 m ρ c (Proc.devRef .tc main_v18) = SC m c := by
  have h14 : W2 m ρ c (Proc.devRef .tc main_v14) = H m c := (W2_arr m ρ c 4).trans (stage1_array m ρ c)
  have h1 : W2 m ρ c (Proc.devRef .tc main_v1) = Sidx m c := (W2_of_ne m ρ c main_v1 (by decide)).trans (W1_s m ρ c)
  have h3 : W2 m ρ c (Proc.devRef .tc main_v3) = Ridx m c := (W2_of_ne m ρ c main_v3 (by decide)).trans (W1_r m ρ c)
  have c1 : ∀ v, (TRef.of main_v1 : TRef sig ⟨S1600000, .i32⟩).ofBuf (Val := Elt Ideal) v = v := fun _ => rfl
  have c14 : ∀ v, (TRef.of main_v14 : TRef sig ⟨S100000x128, .f32⟩).ofBuf (Val := Elt Ideal) v = v := fun _ => rfl
  have c15 : ∀ v, (TRef.of main_v15 : TRef sig ⟨S1600000x128, .f32⟩).toBuf (Val := Elt Ideal) v = v := fun _ => rfl
  dsimp only [W4, W3, hostOps1_1, hostOps1]
  after_results_simp
  simp only [TRef.ofBuf_toBuf, c1, c14, c15]
  rw [h14, h1, h3]
  show Host.scatterAdd scatter_S100000x128_S1600000x1_S1600000x128_1_0_0_1 (broadcastInDim S100000x128 ![] bcast_S_S100000x128 (constant S_ .f32 0x00000000#32))
      (broadcastInDim S1600000x1 ![0] bcast_S1600000_S1600000x1_0 (Ridx m c)) (Take.takeFill (H m c) (Sidx m c)) = _
  rw [Take.takeFill_eq _ _ hs]
  rfl

/-- The second kernel's second operand: the receiver degrees as a column. -/
theorem W4_rd (c : Dev nD) : W4 m ρ c (Proc.devRef .tc main_v13)
    = shapeCast S100000x1 (Cert.ReferenceIdeal.Read.val_main_v10 (F := Ideal) (m ((c : Thread nD τ).loc main_arg1))) shapeCasts_S100000_S100000x1 := by
  have h13 : W2 m ρ c (Proc.devRef .tc main_v13) = _ := (W2_of_ne m ρ c main_v13 (by decide)).trans (W1_rd m ρ c)
  dsimp only [W4, W3, hostOps1_1, hostOps1]
  after_results_simp
  exact h13

end Cert.KernelIdeal.Stage1

end
-- ==== Proof.Region1.lean ====
/-
  The second dense stage as one array, and the program's result.

  Each of the second kernel's twenty grid points reads 5000 rows of the scattered array and of the receiver-degree
  column and writes the same 5000 rows of the result; the row blocks tile the array, so after the kernel the result
  array is one function of the two operand arrays, entry by entry — the reference's last stage.
-/
import proofs.«406221_j21466246546035_2_alg».proof.Proof.Gen.KernelIdeal.Frame
import proofs.«406221_j21466246546035_2_alg».proof.Proof.Gen.ReferenceIdeal.Read
import proofs.«406221_j21466246546035_2_alg».proof.Proof.Pay1
import proofs.«406221_j21466246546035_2_alg».proof.Proof.Mid
import proofs.«406221_j21466246546035_2_alg».proof.Proof.LibColumn
import Idealize.ShloMosaic.Lib.ValueIdx
import Idealize.ShloMosaic.Lib.Pipeline.Value

set_option maxRecDepth 16384

noncomputable section

namespace Cert.KernelIdeal.Stage2

open Cert.KernelIdeal Cert.KernelIdeal.Gen Idealize.ShloMosaic Idealize.ShloMosaic.ValueIdx
open Idealize.ShloMosaic.TcCoe Idealize.SL.Sem Idealize.ShloMosaic.StableHlo
open Idealize.ShloMosaic.Pipeline (Dat)
open Cert.KernelIdeal.Stage1 (one32 origin_zero Sidx SC W4_sc W4_rd)

/-- The grid has 20 points. -/
theorem t_lt (t : Fin cfg1.N) : t.val < 20 := lt_of_lt_of_eq t.isLt N_1

/-- Row `p` of grid point `t`'s block is row `5000 t + p` of the array. -/
def row (t : Fin cfg1.N) (p : Fin 5000) : Fin 100000 := ⟨5000 * t.val + p.val, by have := t_lt t; have := p.isLt; omega⟩

/-- The printed index maps over the grid: point `t` takes row block `t` of each of its three arrays. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section Blocks
-- the arrays as the kernel finds them: a parameter, instantiated at the host fold last
variable (V : (c : Dev nD) → (b : Ref sig .tc) → Buf (Elt Ideal) ((c : Thread nD τ).loc b))

set_option maxHeartbeats 100000 in
/-- The point's block of the scattered array at `(p, q)`. -/
theorem scblk_apply (c : Dev nD) (t : Fin cfg1.N) (S : S100000x128.Idx → EReal) (hsc : V c main_v18 = S) (p : Fin 5000) (q : Fin 128) :
    iblk1 V c 0 t (ix2 p q) = S (ix2 (row t p) q) := by
  obtain ⟨e0, e1, -⟩ := block_index1 t
  show V c main_v18 (((cfg1.win 0).blk t).view.emb (ix2 p q)) = _
  rw [hsc]
  refine congrArg _ (funext fun a => Fin.ext ?_)
  match a with
  | ⟨0, _⟩ => show win1_0.index t (0 : Fin 2) * 5000 + 1 * p.val = 5000 * t.val + p.val; omega
  | ⟨1, _⟩ => show win1_0.index t (1 : Fin 2) * 128 + 1 * q.val = q.val; omega

set_option maxHeartbeats 100000 in
/-- The point's block of the degree column at `(p, 0)` is the degree of row `5000 t + p`. -/
theorem rdblk_apply (c : Dev nD) (t : Fin cfg1.N) (rd : S100000.Idx → EReal)
    (hrd : V c main_v13 = shapeCast S100000x1 rd shapeCasts_S100000_S100000x1) (p : Fin 5000) :
    iblk1 V c 1 t (ix2 p (0 : Fin 1)) = rd (ix1 (row t p)) := by
  obtain ⟨-, -, e0, e1, -⟩ := block_index1 t
  show V c main_v13 (((cfg1.win 1).blk t).view.emb (ix2 p (0 : Fin 1))) = _
  rw [hrd]
  refine shapeCast_apply _ _ _ _ ?_
  rw [Shape.rowMajor_val_one, Shape.rowMajor_val_two]
  show 5000 * t.val + p.val = (win1_1.index t (0 : Fin 2) * 5000 + 1 * p.val) * 1 + (win1_1.index t (1 : Fin 2) * 1 + 1 * 0)
  omega

/-- The second stage as one function of its two arrays: entry `(r, q)` is `silu (S[r, q] · rsqrt (max deg[r] 1))`. -/
def Ofun (S : S100000x128.Idx → EReal) (rd : S100000.Idx → EReal) : S100000x128.Idx → EReal := fun i =>
  silu (S (ix2 (i 0) (i 1)) * Ideal.rsqrt (max (rd (ix1 (i 0))) one32))

set_option maxHeartbeats 200000 in
/-- WHAT POINT `t` WRITES BACK is its block of that function of the arrays the kernel finds. -/
theorem written_back1 (c : Dev nD) (t : Fin cfg1.N) (S : S100000x128.Idx → EReal) (rd : S100000.Idx → EReal)
    (hsc : V c main_v18 = S) (hrd : V c main_v13 = shapeCast S100000x1 rd shapeCasts_S100000_S100000x1) :
    (dat1 V c).flushed 2 t = ((cfg1.win 2).blk t).view.read (Elt Ideal) (Ofun S rd) := by
  show (cfg1.win 2).cut (grid1.coords t) ((dat1 V c).after 2 t) = _
  rw [after1_2]
  unfold out1_2
  rw [View.canon_unit_zero origin_zero]
  simp only [View.ld_unit_zero (S := S5000x128) origin_zero, View.ld_unit_zero (S := S5000x1) origin_zero]
  funext j
  show k1_pay1 (iblk1 V c 0 t) (iblk1 V c 1 t) j = Ofun S rd (((cfg1.win 2).blk t).view.emb j)
  obtain ⟨p, q, rfl⟩ : ∃ (p : Fin 5000) (q : Fin 128), j = ix2 p q := ⟨j 0, j 1, eq_ix2 j⟩
  have hemb : ((cfg1.win 2).blk t).view.emb (ix2 p q) = ix2 (row t p) q := by
    obtain ⟨-, -, -, -, e0, e1⟩ := block_index1 t
    refine funext fun a => Fin.ext ?_
    match a with
    | ⟨0, _⟩ => show win1_2.index t (0 : Fin 2) * 5000 + 1 * p.val = 5000 * t.val + p.val; omega
    | ⟨1, _⟩ => show win1_2.index t (1 : Fin 2) * 128 + 1 * q.val = q.val; omega
  rw [hemb, pay1_apply, rdblk_apply V c t rd hrd, scblk_apply V c t S hsc]
  rfl

end Blocks

/-- An index of the array is in point `t`'s block iff each coordinate is in the block's range on its axis. -/
theorem mem_row_block1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v19).slice (win1_2.rect t)).set ↔ _
  rw [View.set_slice_whole, Rect.mem_set_unit]
  exact Iff.rfl

/-- Every row block is some point's. -/
theorem row_block_onto1 : ∀ q0 : Fin 20, ∃ t : Fin cfg1.N, win1_2.index t = ![q0.val, 0] :=
  (by decide +kernel : ∀ q0 : Fin 20, ∃ t : Fin grid1.N, win1_2.index t = ![q0.val, 0])

/-- The twenty row blocks tile the array: row `r` lies in block `r / 5000`. -/
theorem row_blocks_tile1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := row_block_onto1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_row_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

section Array
variable (V : (c : Dev nD) → (b : Ref sig .tc) → Buf (Elt Ideal) ((c : Thread nD τ).loc b))

/-- THE ARRAY after the second kernel: that one function of the arrays it found. -/
theorem stage2_array_of (c : Dev nD) (S : S100000x128.Idx → EReal) (rd : S100000.Idx → EReal)
    (hsc : V c main_v18 = S) (hrd : V c main_v13 = shapeCast S100000x1 rd shapeCasts_S100000_S100000x1) :
    (dat1 V c).arrAt 2 cfg1.N = Ofun S rd :=
  (dat1 V c).arrAt_eq_of_cover 2 (Ofun S rd) (fun t _ => written_back1 V c t S rd hsc hrd) row_blocks_tile1

end Array

/-- The reference's last stage is that function of its scattered array and of the receiver degrees it computes. -/
theorem O_eq (x : (⟨Cert.ReferenceIdeal.S100000x128, .f32⟩ : BufTy).Contents (Elt Ideal))
    (adj : (⟨Cert.ReferenceIdeal.S2x1600000, .i32⟩ : BufTy).Contents (Elt Ideal))
    (W : (⟨Cert.ReferenceIdeal.S128x128, .f32⟩ : BufTy).Contents (Elt Ideal))
    (b : (⟨Cert.ReferenceIdeal.S128, .f32⟩ : BufTy).Contents (Elt Ideal)) :
    Cert.ReferenceIdeal.Read.val_main_v38 (F := Ideal) x adj W b
      = Ofun (Cert.ReferenceIdeal.Read.val_main_v31 (F := Ideal) x adj W b) (Cert.ReferenceIdeal.Read.val_main_v10 (F := Ideal) adj) :=
  funext fun i => by
    obtain ⟨r, q, rfl⟩ : ∃ (r : Fin 100000) (q : Fin 128), i = ix2 r q := ⟨i 0, i 1, eq_ix2 i⟩
    exact ref38_apply x adj W b r q

variable (m : (ℓ : Loc nD τ sig) → Buf (Elt Ideal) ℓ) (ρ : Dev nD → PrngReg)

/-- The reference's result of the launch arrays. -/
abbrev Out (c : Dev nD) : S100000x128.Idx → EReal :=
  Cert.ReferenceIdeal.Read.val_main_v38 (F := Ideal) (m ((c : Thread nD τ).loc main_arg0)) (m ((c : Thread nD τ).loc main_arg1))
    (m ((c : Thread nD τ).loc main_arg2)) (m ((c : Thread nD τ).loc main_arg3))

/-- After the second kernel its output array holds the reference's result of the launch arrays, when the sender
    indices are in range. -/
theorem stage2_array (c : Dev nD) (hs : ∀ e : S1600000.Idx, -(100000 : Int) ≤ (Sidx m c e).toInt ∧ (Sidx m c e).toInt < 100000) :
    (dat1 (V4 m ρ) c).arrAt 2 cfg1.N = Out m c :=
  (stage2_array_of (V4 m ρ) c (SC m c) (Cert.ReferenceIdeal.Read.val_main_v10 (F := Ideal) (m ((c : Thread nD τ).loc main_arg1)))
    (W4_sc m ρ c hs) (W4_rd m ρ c)).trans (O_eq _ _ _ _).symm

end Cert.KernelIdeal.Stage2

end
-- ==== Proof.PreDecode.lean ====
/-
  The index range, read back from the precondition.

  The precondition's last conjunct is `jnp.all((adj[0] >= -100000) & (adj[0] < 100000))`: the sender row of `adj`, read
  as signed 32-bit integers, lies in `[-100000, 100000)`, the range in which indexing an axis of extent 100000 the
  NumPy way is defined. The predicate being the bit 1 gives, for every edge, the two signed comparisons.
-/
import proofs.«406221_j21466246546035_2_alg».proof.Pre_finite_inputs
import proofs.«406221_j21466246546035_2_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Facts Idealize.ShloMosaic

instance : Subsingleton S_.Idx := ⟨fun a b => funext fun d => d.elim0⟩

variable {F : FTy → Type} [FloatOps F]

/-- The sender row of `adj`: row 0 as a vector of 1 600 000 index words. -/
abbrev senders (adj : IVec S2x1600000 32) : IVec S1600000 32 :=
  shapeCast S1600000 (extractStridedSlice S1x1600000 ![0, 0] adj slices_S2x1600000_S1x1600000_0_0) shapeCasts_S1x1600000_S1600000

/-- Under the precondition every sender index, read signed, lies in `[-100000, 100000)`. -/
theorem sender_range (x : FVec F S100000x128 .f32) (adj : IVec S2x1600000 32) (W : FVec F S128x128 .f32) (b : FVec F S128 .f32)
    (h : fn (F := F) x adj W b = fun _ => 1#1) (e : S1600000.Idx) :
    -(100000 : Int) ≤ (senders adj e).toInt ∧ (senders adj e).toInt < 100000 := by
  have h0 := congrFun h ValueIdx.ix0
  dsimp only [fn, fn_part1] at h0
  obtain ⟨-, h23⟩ := IntOp.andi_eq_one.1 h0
  have he := Host.reduce_andi_all _ _ _ _ _ h23 e
  obtain ⟨hge, hlt⟩ := IntOp.andi_eq_one.1 he
  have h1 : (4294867296#32 : BitVec 32).toInt ≤ (senders adj e).toInt := IntOp.cmpi_sge.1 hge
  have h2 : (senders adj e).toInt < (100000#32 : BitVec 32).toInt := IntOp.cmpi_slt.1 hlt
  have c1 : (4294867296#32 : BitVec 32).toInt = -100000 := by decide
  have c2 : (100000#32 : BitVec 32).toInt = 100000 := by decide
  omega

end Cert.Pre_finite_inputs.Decode

end
-- ==== Proof.lean ====
/-
  The claim: the kernel's program and the reference compute one function of the arguments.

  Both programs form the sender and receiver degrees of the graph by a scatter-add of ones, apply a dense stage
  `h = (x · Wᵀ + b) · rsqrt (max deg_s 1)` row by row, gather the rows of `h` at the senders, scatter-add them at the
  receivers, and finish with `silu (· · rsqrt (max deg_r 1))` row by row. The kernel's program does the two dense stages in
  pallas_calls tiled over twenty blocks of 5000 rows and gathers with `jnp.take`, whose fill mode differs from the
  reference's `h[s]` only at indices outside `[-100000, 100000)`; the precondition keeps the sender row of `adj` inside that
  range (outside it the reference indexes out of range). Over the extended reals every float operation is exact, so
  the tiled stages are the reference's stages entry by entry and the middle is the same two host operations.

  The three frames: the two kernel programs' are the generated frame certificates; the reference's is its generated
  run with the result dropped. The idealization rewrote nothing, so `preserves` is `True`.
-/
import proofs.«406221_j21466246546035_2_alg».proof.Defs
import proofs.«406221_j21466246546035_2_alg».proof.Proof.Gen.Kernel
import proofs.«406221_j21466246546035_2_alg».proof.Proof.Gen.Kernel.Skeleton
import proofs.«406221_j21466246546035_2_alg».proof.Proof.Gen.Kernel.Launch
import proofs.«406221_j21466246546035_2_alg».proof.Proof.Gen.Kernel.Points
import proofs.«406221_j21466246546035_2_alg».proof.Proof.Gen.Kernel.Frame
import proofs.«406221_j21466246546035_2_alg».proof.Proof.Gen.KernelIdeal
import proofs.«406221_j21466246546035_2_alg».proof.Proof.Gen.KernelIdeal.Skeleton
import proofs.«406221_j21466246546035_2_alg».proof.Proof.Gen.KernelIdeal.Launch
import proofs.«406221_j21466246546035_2_alg».proof.Proof.Gen.KernelIdeal.Points
import proofs.«406221_j21466246546035_2_alg».proof.Proof.Gen.KernelIdeal.Frame
import proofs.«406221_j21466246546035_2_alg».proof.Proof.Gen.ReferenceIdeal
import proofs.«406221_j21466246546035_2_alg».proof.Proof.Gen.Pre_finite_inputs
import proofs.«406221_j21466246546035_2_alg».proof.Proof.Gen.ReferenceIdeal.Run
import proofs.«406221_j21466246546035_2_alg».proof.Proof.Gen.ReferenceIdeal.Read
import proofs.«406221_j21466246546035_2_alg».proof.Proof.KRun
import proofs.«406221_j21466246546035_2_alg».proof.Proof.Region1
import proofs.«406221_j21466246546035_2_alg».proof.Proof.PreDecode
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Under the precondition the sender row of the launch `adj` lies in `[-100000, 100000)`. -/
theorem senders_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Cert.KernelIdeal.S1600000.Idx) :
    -(100000 : Int) ≤ (Cert.KernelIdeal.Stage1.Sidx m c e).toInt ∧ (Cert.KernelIdeal.Stage1.Sidx m c e).toInt < 100000 :=
  Cert.Pre_finite_inputs.Decode.sender_range _ _ _ _ (hpre c) e

/-- Both programs end with the reference's result of the launch arrays in their result buffer. -/
theorem algebraic : Cert.algebraic_KernelIdeal_ReferenceIdeal := by
  intro m ρ m' ρ' hpre hagree
  refine ⟨fun c => Cert.KernelIdeal.Stage2.Out m c,
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.KRun.run_main m ρ)
    obtain ⟨h19, h0, h1, h2, h3⟩ := h c
    refine ⟨?_, h1, h0, h1, h2, h3⟩
    rw [h19, Cert.KernelIdeal.KRun.W5_result, Cert.KernelIdeal.Stage2.stage2_array m ρ c (senders_in_range m hpre c)]
  · refine (θ_run Cert.ReferenceIdeal.defs _ _).mono (fun r h c => ?_) (Cert.ReferenceIdeal.Value.run (F := Ideal) m' ρ')
    obtain ⟨h38, h1', h0, h1, h2, h3⟩ := h c
    refine ⟨?_, ?_, h0, h1, h2, h3⟩
    · rw [h38, Cert.ReferenceIdeal.Read.val_main_v38_eq, (hagree c).1, (hagree c).2.1, (hagree c).2.2.1, (hagree c).2.2.2]
    · rw [h1']
      exact (hagree c).2.1

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
